-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S512x50 : Shape := ⟨2, ![512, 50]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel

variable [Facts]

def fn {F : FTy → Type} [FloatOps F] (main_arg0 : FVec F S512x4096 .f32) (main_arg1 : IVec S512x50 32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  main_v3
-- ==== Kernel.lean ====
abbrev S512x4096 : Shape := ⟨2, ![512, 4096]⟩
abbrev S512x50 : Shape := ⟨2, ![512, 50]⟩
abbrev S_ : Shape := ⟨0, ![]⟩
abbrev S512x50x1 : Shape := ⟨3, ![512, 50, 1]⟩
abbrev S1 : Shape := ⟨1, ![1]⟩
abbrev S1x1x1 : Shape := ⟨3, ![1, 1, 1]⟩
abbrev S128x4096 : Shape := ⟨2, ![128, 4096]⟩
abbrev S128x50 : Shape := ⟨2, ![128, 50]⟩
abbrev S128x1 : Shape := ⟨2, ![128, 1]⟩
abbrev S128 : Shape := ⟨1, ![128]⟩

abbrev nBuf : Space → Nat
  | .hbm => 43
  | .vmem => 6
  | .smem => 0
  | _ => 0

abbrev bufTy : (tb : Table) → Fin (tcTables nBuf tb) → BufTy
  | .hbm, ⟨0, _⟩ => ⟨S512x4096, .f32⟩
  | .hbm, ⟨1, _⟩ => ⟨S512x50, .i32⟩
  | .hbm, ⟨2, _⟩ => ⟨S_, .i32⟩
  | .hbm, ⟨3, _⟩ => ⟨S512x50, .i32⟩
  | .hbm, ⟨4, _⟩ => ⟨S512x50, .i1⟩
  | .hbm, ⟨5, _⟩ => ⟨S_, .i32⟩
  | .hbm, ⟨6, _⟩ => ⟨S_, .i32⟩
  | .hbm, ⟨7, _⟩ => ⟨S512x50, .i32⟩
  | .hbm, ⟨8, _⟩ => ⟨S512x50, .i32⟩
  | .hbm, ⟨9, _⟩ => ⟨S_, .i32⟩
  | .hbm, ⟨10, _⟩ => ⟨S512x50, .i32⟩
  | .hbm, ⟨11, _⟩ => ⟨S512x50, .i1⟩
  | .hbm, ⟨12, _⟩ => ⟨S_, .i32⟩
  | .hbm, ⟨13, _⟩ => ⟨S512x50, .i32⟩
  | .hbm, ⟨14, _⟩ => ⟨S512x50, .i32⟩
  | .hbm, ⟨15, _⟩ => ⟨S512x50, .i32⟩
  | .hbm, ⟨16, _⟩ => ⟨S512x50x1, .i32⟩
  | .hbm, ⟨17, _⟩ => ⟨S1, .i32⟩
  | .hbm, ⟨18, _⟩ => ⟨S_, .i32⟩
  | .hbm, ⟨19, _⟩ => ⟨S512x50x1, .i32⟩
  | .hbm, ⟨20, _⟩ => ⟨S512x50x1, .i1⟩
  | .hbm, ⟨21, _⟩ => ⟨S1x1x1, .i32⟩
  | .hbm, ⟨22, _⟩ => ⟨S512x50x1, .i32⟩
  | .hbm, ⟨23, _⟩ => ⟨S512x50x1, .i1⟩
  | .hbm, ⟨24, _⟩ => ⟨S512x50x1, .i1⟩
  | .hbm, ⟨25, _⟩ => ⟨S_, .i1⟩
  | .hbm, ⟨26, _⟩ => ⟨S512x50, .i1⟩
  | .hbm, ⟨27, _⟩ => ⟨S512x50, .f32⟩
  | .hbm, ⟨28, _⟩ => ⟨S_, .f32⟩
  | .hbm, ⟨29, _⟩ => ⟨S512x50, .f32⟩
  | .hbm, ⟨30, _⟩ => ⟨S512x50, .f32⟩
  | .hbm, ⟨31, _⟩ => ⟨S512x50, .f32⟩
  | .hbm, ⟨32, _⟩ => ⟨S_, .f32⟩
  | .hbm, ⟨33, _⟩ => ⟨S512x50, .f32⟩
  | .hbm, ⟨34, _⟩ => ⟨S512x50, .f32⟩
  | .hbm, ⟨35, _⟩ => ⟨S_, .f32⟩
  | .hbm, ⟨36, _⟩ => ⟨S_, .f32⟩
  | .hbm, ⟨37, _⟩ => ⟨S512x50, .f32⟩
  | .hbm, ⟨38, _⟩ => ⟨S512x50, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S128x4096, .f32⟩
  | .local _ .vmem, ⟨1, _⟩ => ⟨S128x4096, .f32⟩
  | .local _ .vmem, ⟨2, _⟩ => ⟨S128x50, .f32⟩
  | .local _ .vmem, ⟨3, _⟩ => ⟨S128x50, .f32⟩
  | .local _ .vmem, ⟨4, _⟩ => ⟨S128x50, .f32⟩
  | .local _ .vmem, ⟨5, _⟩ => ⟨S128x50, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_cst : Ref sig .tc := ⟨.hbm, 28, rfl⟩
abbrev main_call1_v14 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_call2_v0 : Ref sig .tc := ⟨.hbm, 36, rfl⟩
abbrev main_call2_v1 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_cst_3 : Ref sig .tc := ⟨.hbm, 41, rfl⟩
abbrev main_v9 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S512x50 : S_.BroadcastsInDim S512x50 (![] : Fin 0 → Fin S512x50.rank)
  shapeCasts_S512x50_S512x50x1 : S512x50.ShapeCasts S512x50x1
  bcast_S_S512x50x1 : S_.BroadcastsInDim S512x50x1 (![] : Fin 0 → Fin S512x50x1.rank)
  bcast_S1_S1x1x1_2 : S1.BroadcastsInDim S1x1x1 (![2] : Fin 1 → Fin S1x1x1.rank)
  bcast_S1x1x1_S512x50x1_0_1_2 : S1x1x1.BroadcastsInDim S512x50x1 (![0, 1, 2] : Fin 3 → Fin S512x50x1.rank)
  reducesTo_S512x50x1_S512x50_d2 : S512x50x1.ReducesTo [2] S512x50
  h_S_ : 0 < S_.numel
  inb_S128x4096_S128x4096_0_0 : ∀ a, (![0, 0] : Fin 2 → Nat) a + S128x4096.size a ≤ S128x4096.size a
  h_S128x4096 : 0 < S128x4096.numel
  inb_S128x50_S128x50_0_0 : ∀ a, (![0, 0] : Fin 2 → Nat) a + S128x50.size a ≤ S128x50.size a
  h_S128x50 : 0 < S128x50.numel
  shapeCasts_S128x50_S128x50 : S128x50.ShapeCasts S128x50
  slices_S128x50_o0_0_S128x1 : S128x50.Slices ![0, 0] S128x1
  broadcasts_S128x1_S128x4096 : S128x1.Broadcasts S128x4096
  reduces_S128x4096_S128 : S128x4096.Reduces [1] S128
  slices_S128x50_o0_1_S128x1 : S128x50.Slices ![0, 1] S128x1
  slices_S128x50_o0_2_S128x1 : S128x50.Slices ![0, 2] S128x1
  slices_S128x50_o0_3_S128x1 : S128x50.Slices ![0, 3] S128x1
  slices_S128x50_o0_4_S128x1 : S128x50.Slices ![0, 4] S128x1
  slices_S128x50_o0_5_S128x1 : S128x50.Slices ![0, 5] S128x1
  slices_S128x50_o0_6_S128x1 : S128x50.Slices ![0, 6] S128x1
  slices_S128x50_o0_7_S128x1 : S128x50.Slices ![0, 7] S128x1
  slices_S128x50_o0_8_S128x1 : S128x50.Slices ![0, 8] S128x1
  slices_S128x50_o0_9_S128x1 : S128x50.Slices ![0, 9] S128x1
  slices_S128x50_o0_10_S128x1 : S128x50.Slices ![0, 10] S128x1
  slices_S128x50_o0_11_S128x1 : S128x50.Slices ![0, 11] S128x1
  slices_S128x50_o0_12_S128x1 : S128x50.Slices ![0, 12] S128x1
  slices_S128x50_o0_13_S128x1 : S128x50.Slices ![0, 13] S128x1
  slices_S128x50_o0_14_S128x1 : S128x50.Slices ![0, 14] S128x1
  slices_S128x50_o0_15_S128x1 : S128x50.Slices ![0, 15] S128x1
  slices_S128x50_o0_16_S128x1 : S128x50.Slices ![0, 16] S128x1
  slices_S128x50_o0_17_S128x1 : S128x50.Slices ![0, 17] S128x1
  slices_S128x50_o0_18_S128x1 : S128x50.Slices ![0, 18] S128x1
  slices_S128x50_o0_19_S128x1 : S128x50.Slices ![0, 19] S128x1
  slices_S128x50_o0_20_S128x1 : S128x50.Slices ![0, 20] S128x1
  slices_S128x50_o0_21_S128x1 : S128x50.Slices ![0, 21] S128x1
  slices_S128x50_o0_22_S128x1 : S128x50.Slices ![0, 22] S128x1
  slices_S128x50_o0_23_S128x1 : S128x50.Slices ![0, 23] S128x1
  slices_S128x50_o0_24_S128x1 : S128x50.Slices ![0, 24] S128x1
  slices_S128x50_o0_25_S128x1 : S128x50.Slices ![0, 25] S128x1
  slices_S128x50_o0_26_S128x1 : S128x50.Slices ![0, 26] S128x1
  slices_S128x50_o0_27_S128x1 : S128x50.Slices ![0, 27] S128x1
  slices_S128x50_o0_28_S128x1 : S128x50.Slices ![0, 28] S128x1
  slices_S128x50_o0_29_S128x1 : S128x50.Slices ![0, 29] S128x1
  slices_S128x50_o0_30_S128x1 : S128x50.Slices ![0, 30] S128x1
  slices_S128x50_o0_31_S128x1 : S128x50.Slices ![0, 31] S128x1
  slices_S128x50_o0_32_S128x1 : S128x50.Slices ![0, 32] S128x1
  slices_S128x50_o0_33_S128x1 : S128x50.Slices ![0, 33] S128x1
  slices_S128x50_o0_34_S128x1 : S128x50.Slices ![0, 34] S128x1
  slices_S128x50_o0_35_S128x1 : S128x50.Slices ![0, 35] S128x1
  slices_S128x50_o0_36_S128x1 : S128x50.Slices ![0, 36] S128x1
  slices_S128x50_o0_37_S128x1 : S128x50.Slices ![0, 37] S128x1
  slices_S128x50_o0_38_S128x1 : S128x50.Slices ![0, 38] S128x1
  slices_S128x50_o0_39_S128x1 : S128x50.Slices ![0, 39] S128x1
  slices_S128x50_o0_40_S128x1 : S128x50.Slices ![0, 40] S128x1
  slices_S128x50_o0_41_S128x1 : S128x50.Slices ![0, 41] S128x1
  slices_S128x50_o0_42_S128x1 : S128x50.Slices ![0, 42] S128x1
  slices_S128x50_o0_43_S128x1 : S128x50.Slices ![0, 43] S128x1
  slices_S128x50_o0_44_S128x1 : S128x50.Slices ![0, 44] S128x1
  slices_S128x50_o0_45_S128x1 : S128x50.Slices ![0, 45] S128x1
  slices_S128x50_o0_46_S128x1 : S128x50.Slices ![0, 46] S128x1
  slices_S128x50_o0_47_S128x1 : S128x50.Slices ![0, 47] S128x1
  slices_S128x50_o0_48_S128x1 : S128x50.Slices ![0, 48] S128x1
  slices_S128x50_o0_49_S128x1 : S128x50.Slices ![0, 49] S128x1
  shapeCasts_S128_S128x1 : S128.ShapeCasts S128x1
  concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x50_d1 : Shape.Concatenates (S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: S128x1 :: []) S128x50 1
  reducesTo_S512x50_S_d0_1 : S512x50.ReducesTo [0, 1] S_
  gather_S512x4096_S512x50x1_S512x50_n_1_0_0_1_2_11_wf : GatherDims.WF S512x4096 S512x50x1 S512x50 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S512x4096.size a
  hwx0_0 : ∀ i : grid0.Coords, EltTy.bits .f32 = 32 ∨ (Rect.block (s := S512x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x50.size a ≤ S512x50.size a
  hwx0_1 : ∀ i : grid0.Coords, EltTy.bits .f32 = 32 ∨ (Rect.block (s := S512x50) S128x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x50.size a ≤ S512x50.size a
  hwx0_2 : ∀ i : grid0.Coords, EltTy.bits .f32 = 32 ∨ (Rect.block (s := S512x50) S128x50.size (cc0_transform_2 i) (hinb0_2 i)).WholeWords (EltTy.packing .f32)

variable [Facts₀]

def gather_S512x4096_S512x50x1_S512x50_n_1_0_0_1_2_11 : GatherDims S512x4096 S512x50x1 S512x50 where
  offsetDims := []
  collapsedSliceDims := [1]
  operandBatchingDims := [0]
  startIndicesBatchingDims := [0]
  startIndexMap := [1]
  indexVectorDim := 2
  sliceSizes := ![1, 1]
  wf := gather_S512x4096_S512x50x1_S512x50_n_1_0_0_1_2_11_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x50.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x4096 : Shape := ⟨2, ![512, 4096]⟩
abbrev S512x50 : Shape := ⟨2, ![512, 50]⟩
abbrev S_ : Shape := ⟨0, ![]⟩
abbrev S512x50x1 : Shape := ⟨3, ![512, 50, 1]⟩
abbrev S1 : Shape := ⟨1, ![1]⟩
abbrev S1x1x1 : Shape := ⟨3, ![1, 1, 1]⟩
abbrev S512x1x4096 : Shape := ⟨3, ![512, 1, 4096]⟩
abbrev S512x50x4096 : Shape := ⟨3, ![512, 50, 4096]⟩

abbrev nBuf : Space → Nat
  | .hbm => 55
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x50, .i32⟩
  | .hbm, ⟨2, _⟩ => ⟨S_, .i32⟩
  | .hbm, ⟨3, _⟩ => ⟨S512x50, .i32⟩
  | .hbm, ⟨4, _⟩ => ⟨S512x50, .i1⟩
  | .hbm, ⟨5, _⟩ => ⟨S_, .i32⟩
  | .hbm, ⟨6, _⟩ => ⟨S_, .i32⟩
  | .hbm, ⟨7, _⟩ => ⟨S512x50, .i32⟩
  | .hbm, ⟨8, _⟩ => ⟨S512x50, .i32⟩
  | .hbm, ⟨9, _⟩ => ⟨S_, .i32⟩
  | .hbm, ⟨10, _⟩ => ⟨S512x50, .i32⟩
  | .hbm, ⟨11, _⟩ => ⟨S512x50, .i1⟩
  | .hbm, ⟨12, _⟩ => ⟨S_, .i32⟩
  | .hbm, ⟨13, _⟩ => ⟨S512x50, .i32⟩
  | .hbm, ⟨14, _⟩ => ⟨S512x50, .i32⟩
  | .hbm, ⟨15, _⟩ => ⟨S512x50, .i32⟩
  | .hbm, ⟨16, _⟩ => ⟨S512x50x1, .i32⟩
  | .hbm, ⟨17, _⟩ => ⟨S1, .i32⟩
  | .hbm, ⟨18, _⟩ => ⟨S_, .i32⟩
  | .hbm, ⟨19, _⟩ => ⟨S512x50x1, .i32⟩
  | .hbm, ⟨20, _⟩ => ⟨S512x50x1, .i1⟩
  | .hbm, ⟨21, _⟩ => ⟨S1x1x1, .i32⟩
  | .hbm, ⟨22, _⟩ => ⟨S512x50x1, .i32⟩
  | .hbm, ⟨23, _⟩ => ⟨S512x50x1, .i1⟩
  | .hbm, ⟨24, _⟩ => ⟨S512x50x1, .i1⟩
  | .hbm, ⟨25, _⟩ => ⟨S_, .i1⟩
  | .hbm, ⟨26, _⟩ => ⟨S512x50, .i1⟩
  | .hbm, ⟨27, _⟩ => ⟨S512x50, .f32⟩
  | .hbm, ⟨28, _⟩ => ⟨S_, .f32⟩
  | .hbm, ⟨29, _⟩ => ⟨S512x50, .f32⟩
  | .hbm, ⟨30, _⟩ => ⟨S512x50, .f32⟩
  | .hbm, ⟨31, _⟩ => ⟨S512x50x1, .f32⟩
  | .hbm, ⟨32, _⟩ => ⟨S512x1x4096, .f32⟩
  | .hbm, ⟨33, _⟩ => ⟨S512x50x4096, .f32⟩
  | .hbm, ⟨34, _⟩ => ⟨S512x50x4096, .f32⟩
  | .hbm, ⟨35, _⟩ => ⟨S512x50x4096, .f32⟩
  | .hbm, ⟨36, _⟩ => ⟨S_, .f32⟩
  | .hbm, ⟨37, _⟩ => ⟨S512x50x4096, .f32⟩
  | .hbm, ⟨38, _⟩ => ⟨S512x50x4096, .f32⟩
  | .hbm, ⟨39, _⟩ => ⟨S_, .f32⟩
  | .hbm, ⟨40, _⟩ => ⟨S512x50x4096, .f32⟩
  | .hbm, ⟨41, _⟩ => ⟨S512x50x4096, .f32⟩
  | .hbm, ⟨42, _⟩ => ⟨S_, .f32⟩
  | .hbm, ⟨43, _⟩ => ⟨S512x50, .f32⟩
  | .hbm, ⟨44, _⟩ => ⟨S_, .f32⟩
  | .hbm, ⟨45, _⟩ => ⟨S512x50, .f32⟩
  | .hbm, ⟨46, _⟩ => ⟨S512x50, .f32⟩
  | .hbm, ⟨47, _⟩ => ⟨S_, .f32⟩
  | .hbm, ⟨48, _⟩ => ⟨S_, .f32⟩
  | .hbm, ⟨49, _⟩ => ⟨S512x50, .f32⟩
  | .hbm, ⟨50, _⟩ => ⟨S512x50, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_cst : Ref sig .tc := ⟨.hbm, 28, rfl⟩
abbrev main_call1_v14 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst : Ref sig .tc := ⟨.hbm, 36, rfl⟩
abbrev main_v9 : Ref sig .tc := ⟨.hbm, 37, rfl⟩
abbrev main_v10 : Ref sig .tc := ⟨.hbm, 38, rfl⟩
abbrev main_call2_cst : Ref sig .tc := ⟨.hbm, 39, rfl⟩
abbrev main_call2_v0 : Ref sig .tc := ⟨.hbm, 40, rfl⟩
abbrev main_v11 : Ref sig .tc := ⟨.hbm, 41, rfl⟩
abbrev main_cst_1 : Ref sig .tc := ⟨.hbm, 42, rfl⟩
abbrev main_v12 : Ref sig .tc := ⟨.hbm, 43, rfl⟩
abbrev main_cst_2 : Ref sig .tc := ⟨.hbm, 44, rfl⟩
abbrev main_v13 : Ref sig .tc := ⟨.hbm, 45, rfl⟩
abbrev main_v14 : Ref sig .tc := ⟨.hbm, 46, rfl⟩
abbrev main_cst_3 : Ref sig .tc := ⟨.hbm, 47, rfl⟩
abbrev main_call3_v0 : Ref sig .tc := ⟨.hbm, 48, rfl⟩
abbrev main_call3_v1 : Ref sig .tc := ⟨.hbm, 49, rfl⟩
abbrev main_v15 : Ref sig .tc := ⟨.hbm, 50, rfl⟩
abbrev main_cst_4 : Ref sig .tc := ⟨.hbm, 51, rfl⟩
abbrev main_v16 : Ref sig .tc := ⟨.hbm, 52, rfl⟩
abbrev main_cst_5 : Ref sig .tc := ⟨.hbm, 53, rfl⟩
abbrev main_v17 : Ref sig .tc := ⟨.hbm, 54, rfl⟩

abbrev nD : Nat := 1
abbrev τ : Topo := Topo.v7x

variable {F : FTy → Type} [FloatOps F]

class Facts₀ : Prop where
  bcast_S_S512x50 : S_.BroadcastsInDim S512x50 (![] : Fin 0 → Fin S512x50.rank)
  shapeCasts_S512x50_S512x50x1 : S512x50.ShapeCasts S512x50x1
  bcast_S_S512x50x1 : S_.BroadcastsInDim S512x50x1 (![] : Fin 0 → Fin S512x50x1.rank)
  bcast_S1_S1x1x1_2 : S1.BroadcastsInDim S1x1x1 (![2] : Fin 1 → Fin S1x1x1.rank)
  bcast_S1x1x1_S512x50x1_0_1_2 : S1x1x1.BroadcastsInDim S512x50x1 (![0, 1, 2] : Fin 3 → Fin S512x50x1.rank)
  reducesTo_S512x50x1_S512x50_d2 : S512x50x1.ReducesTo [2] S512x50
  h_S_ : 0 < S_.numel
  bcast_S512x50_S512x50x1_0_1 : S512x50.BroadcastsInDim S512x50x1 (![0, 1] : Fin 2 → Fin S512x50x1.rank)
  bcast_S512x4096_S512x1x4096_0_2 : S512x4096.BroadcastsInDim S512x1x4096 (![0, 2] : Fin 2 → Fin S512x1x4096.rank)
  bcast_S512x50x1_S512x50x4096_0_1_2 : S512x50x1.BroadcastsInDim S512x50x4096 (![0, 1, 2] : Fin 3 → Fin S512x50x4096.rank)
  bcast_S512x1x4096_S512x50x4096_0_1_2 : S512x1x4096.BroadcastsInDim S512x50x4096 (![0, 1, 2] : Fin 3 → Fin S512x50x4096.rank)
  bcast_S_S512x50x4096 : S_.BroadcastsInDim S512x50x4096 (![] : Fin 0 → Fin S512x50x4096.rank)
  reducesTo_S512x50x4096_S512x50_d2 : S512x50x4096.ReducesTo [2] S512x50
  reducesTo_S512x50_S_d0_1 : S512x50.ReducesTo [0, 1] S_
  gather_S512x4096_S512x50x1_S512x50_n_1_0_0_1_2_11_wf : GatherDims.WF S512x4096 S512x50x1 S512x50 [] [1] [0] [1] [0] 2 ![1, 1]

variable [Facts₀]

def gather_S512x4096_S512x50x1_S512x50_n_1_0_0_1_2_11 : GatherDims S512x4096 S512x50x1 S512x50 where
  offsetDims := []
  collapsedSliceDims := [1]
  operandBatchingDims := [0]
  startIndicesBatchingDims := [0]
  startIndexMap := [1]
  indexVectorDim := 2
  sliceSizes := ![1, 1]
  wf := gather_S512x4096_S512x50x1_S512x50_n_1_0_0_1_2_11_wf

class Facts : Prop extends Facts₀ where

variable [Facts]
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.MarginColumn.lean ====
/-
  One column of the margin loss, read at a row.

  For a block of rows the kernel forms, for label column `k`, the lane sum over the class axis of
  `max ((1 - xt[p, k]) + x[p, j], 0)`: the pre-gathered target score `xt[p, k]` is sliced out as a column, subtracted
  from one, broadcast along the class axis, added to the row of scores, clamped at zero and summed over `j`.
  `column k` is that term as a function of the two blocks, at any float instance; `column_apply` reads it at a row
  `p` over the extended reals as the finite sum `∑ j, max (one - xt[p, k] + x[p, j]) zero`.

  The reference writes the summand as `one - (xt[p, k] - x[p, j])`. On the extended reals the two agree whenever
  `x[p, j]` is a real number, whatever `one` and `xt[p, k]` are (`sub_add_coe`): negation distributes over a
  difference whose subtrahend is finite, and addition is associative.
-/
import Idealize.ShloMosaic.PureOps.Ideal.Laws
import Idealize.ShloMosaic.Lib.ValueIdx
import Idealize.ShloMosaic.Lib.Pipeline.Value
import proofs.«162873_j73014444032082_1_alg».proof.Proof.LibPlainMatmul

noncomputable section

open scoped BigOperators

namespace Cert.Margin

open Idealize.ShloMosaic Idealize.ShloMosaic.ValueIdx

/-- `c - a + r = c - (a - r)` on the extended reals when `r` is real. -/
theorem sub_add_coe (c a : EReal) (r : ℝ) : c - a + (r : EReal) = c - (a - (r : EReal)) := by
  rw [sub_eq_add_neg c (a - r), EReal.neg_sub (Or.inr (EReal.coe_ne_bot r)) (Or.inr (EReal.coe_ne_top r)),
    ← add_assoc, ← sub_eq_add_neg]

abbrev SX : Shape := ⟨2, ![128, 4096]⟩
abbrev ST : Shape := ⟨2, ![128, 50]⟩
abbrev SC : Shape := ⟨2, ![128, 1]⟩
abbrev SR : Shape := ⟨1, ![128]⟩

/-- Label column `k` of a block: the lane sum of `max ((1 - xt[:, k]) + x, 0)`. -/
def column {F : FTy → Type} [FloatOps F] (k : Nat) (hs : ST.Slices ![0, k] SC) (hb : SC.Broadcasts SX)
    (hr : SX.Reduces [1] SR) (x : FVec F SX .f32) (xt : FVec F ST .f32) : FVec F SR .f32 :=
  multiReduction .add [1] SR
    (maximumf (addf (broadcastTo SX (subf (broadcast SC (Scalar.ofBits .f32 0x3F800000#32)) (extractStridedSlice SC ![0, k] xt hs)) hb) x)
      (broadcast SX (Scalar.ofBits .f32 0x00000000#32)))
    0x00000000#32 hr (.inl rfl) rfl

/-- The column at row `p`, over the extended reals. -/
theorem column_apply (k : Fin 50) (hs : ST.Slices ![0, k.val] SC) (hb : SC.Broadcasts SX) (hr : SX.Reduces [1] SR)
    (x : FVec Ideal SX .f32) (xt : FVec Ideal ST .f32) (p : Fin 128) :
    column (F := Ideal) k.val hs hb hr x xt (ix1 p)
      = ∑ j : Fin 4096, max (Ideal.ofBits .f32 0x3F800000#32 - xt (ix2 p k) + x (ix2 p j)) (Ideal.ofBits .f32 0x00000000#32) := by
  unfold column
  refine (Ideal.multiReduction_add_single _ 0x00000000#32 hr (.inl rfl) rfl (ix1 p)).trans ?_
  refine Finset.sum_congr rfl fun (j : Fin 4096) _ => ?_
  have hl : hr.lift (ix1 p) j = ix2 p j :=
    funext fun a => Fin.ext (by match a with | ⟨0, _⟩ => rfl | ⟨1, _⟩ => rfl)
  have hbc : broadcastTo SX (subf (broadcast SC (Scalar.ofBits (F := Ideal) .f32 0x3F800000#32)) (extractStridedSlice SC ![0, k.val] xt hs)) hb (ix2 p j)
      = Ideal.ofBits .f32 0x3F800000#32 - xt (ix2 p k) := by
    refine (Cert.Gnn.broadcastTo_a1_ab_apply _ hb p j).trans ?_
    show Ideal.ofBits .f32 0x3F800000#32 - extractStridedSlice SC ![0, k.val] xt hs (ix2 p (0 : Fin 1)) = _
    exact congrArg (fun z => Ideal.ofBits .f32 0x3F800000#32 - z)
      (extractStridedSlice_apply ![0, k.val] xt hs (ix2 p (0 : Fin 1)) (ix2 p k)
        (fun a => by match a with | ⟨0, _⟩ => exact (Nat.zero_add _).symm | ⟨1, _⟩ => rfl))
  show max (broadcastTo SX (subf (broadcast SC (Scalar.ofBits (F := Ideal) .f32 0x3F800000#32)) (extractStridedSlice SC ![0, k.val] xt hs)) hb (hr.lift (ix1 p) j)
      + x (hr.lift (ix1 p) j)) _ = _
  rw [hl, hbc]
  rfl

/-- Every label column is a slice of the block of pre-gathered scores. -/
theorem slices_col (k : Fin 50) : ST.Slices ![0, k.val] SC :=
  ⟨rfl, fun a => by match a with | ⟨0, _⟩ => exact Nat.le_refl 128 | ⟨1, _⟩ => exact k.isLt⟩

/-- A vector of row sums recast as a column, read at `(p, 0)`. -/
theorem column_cast_apply {α : Type} (v : SR.Idx → α) (h : SR.ShapeCasts SC) (p : Fin 128) :
    shapeCast SC v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- Fifty unit columns laid side by side, read at `(p, q)`: column `q` at row `p`. -/
theorem stack_apply {α : Type} (f : Fin 50 → (SC.Idx → α))
    (h : Shape.Concatenates ((List.ofFn fun n : Fin 50 => (⟨SC, f n⟩ : (s : Shape) × (s.Idx → α))).map (·.1)) ST 1)
    (p : Fin 128) (q : Fin 50) :
    concatenate ST 1 (List.ofFn fun n : Fin 50 => (⟨SC, f n⟩ : (s : Shape) × (s.Idx → α))) h (ix2 p q)
      = f q (ix2 p (0 : Fin 1)) :=
  concatenate_ofFn_unit_apply (1 : Fin ST.rank) f h rfl rfl (ix2 p q) q rfl (ix2 p (0 : Fin 1))
    (fun b hb => by match b with | ⟨0, _⟩ => rfl | ⟨1, _⟩ => exact absurd rfl hb)

/-- The block the body stores — the fifty label columns stacked — read at `(p, q)`, over the extended reals. -/
theorem stacked_columns_apply (hb : SC.Broadcasts SX) (hr : SX.Reduces [1] SR) (hc : SR.ShapeCasts SC)
    (x : FVec Ideal SX .f32) (xt : FVec Ideal ST .f32)
    (h : Shape.Concatenates ((List.ofFn fun n : Fin 50 =>
      (⟨SC, shapeCast SC (column (F := Ideal) n.val (slices_col n) hb hr x xt) hc⟩ : (s : Shape) × (s.Idx → Ideal .f32))).map (·.1)) ST 1)
    (p : Fin 128) (q : Fin 50) :
    concatenate ST 1 (List.ofFn fun n : Fin 50 =>
      (⟨SC, shapeCast SC (column (F := Ideal) n.val (slices_col n) hb hr x xt) hc⟩ : (s : Shape) × (s.Idx → Ideal .f32))) h (ix2 p q)
      = ∑ j : Fin 4096, max (Ideal.ofBits .f32 0x3F800000#32 - xt (ix2 p q) + x (ix2 p j)) (Ideal.ofBits .f32 0x00000000#32) := by
  rw [stack_apply (fun n : Fin 50 => shapeCast SC (column (F := Ideal) n.val (slices_col n) hb hr x xt) hc), column_cast_apply, column_apply]

/-! ## The whole array of per-label sums -/

abbrev AX : Shape := ⟨2, ![512, 4096]⟩
abbrev AT : Shape := ⟨2, ![512, 50]⟩

/-- The per-label margin sums over all rows, in the kernel's grouping: entry `(b, k)` is
    `∑ j, max (one - xt[b, k] + x[b, j]) zero`. -/
def sums (x : AX.Idx → EReal) (xt : AT.Idx → EReal) : AT.Idx → EReal :=
  fun i => ∑ j : Fin 4096,
    max (Ideal.ofBits .f32 0x3F800000#32 - xt i + x (ix2 (i 0) j)) (Ideal.ofBits .f32 0x00000000#32)

/-- With every score a real number, each summand is the reference's `one - (xt[b, k] - x[b, j])` clamped at zero. -/
theorem sums_eq_ref (x : AX.Idx → EReal) (xt : AT.Idx → EReal) (hx : ∀ i, ∃ r : ℝ, x i = (r : EReal)) (i : AT.Idx) :
    sums x xt i = ∑ j : Fin 4096,
      max (Ideal.ofBits .f32 0x3F800000#32 - (xt i - x (ix2 (i 0) j))) (Ideal.ofBits .f32 0x00000000#32) := by
  unfold sums
  refine Finset.sum_congr rfl fun j _ => ?_
  obtain ⟨r, hr⟩ := hx (ix2 (i 0) j)
  rw [hr, sub_add_coe]

end Cert.Margin

end
-- ==== Proof.KernelBlock.lean ====
/-
  What the kernel body leaves in the output block, read at an entry.

  The body stores one [128, 50] block: the fifty label columns, each the lane sum of `max ((1 - xt[:, k]) + x, 0)`
  over the class axis, recast as [128, 1] columns and laid side by side. Whatever way the printed body groups the
  operations of one column, each column is by unfolding the same term `Margin.column k` of the two loaded blocks, so
  the stored block is the stack of `Margin.column k`, `k < 50`; at entry `(p, q)` it is
  `∑ j, max (one - xt[p, q] + x[p, j]) zero` over the extended reals.
-/
import proofs.«162873_j73014444032082_1_alg».proof.Proof.KernelIdealFrame
import proofs.«162873_j73014444032082_1_alg».proof.Proof.MarginColumn

set_option maxRecDepth 16384

noncomputable section

open scoped BigOperators

namespace Cert.KernelIdeal.MarginValue

open Idealize.ShloMosaic Idealize.ShloMosaic.TcCoe Idealize.ShloMosaic.ValueIdx Idealize.SL.Sem
open Cert.KernelIdeal Cert.KernelIdeal.Gen Cert.KernelIdeal.GenP Cert.Margin

theorem hz : (![0, 0] : Fin 2 → Nat) = fun _ => 0 := funext fun a => by fin_cases a <;> rfl

/-- The stored block is the stack of the fifty label columns. -/
theorem out_eq {F : FTy → Type} [FloatOps F] (x0 : Vec F S128x4096 .f32) (x1 : Vec F S128x50 .f32) :
    out0_2 x0 x1 = concatenate S128x50 1 (List.ofFn fun n : Fin 50 =>
      (⟨S128x1, shapeCast S128x1 (column n.val (slices_col n) broadcasts_S128x1_S128x4096 reduces_S128x4096_S128 x0 (k0_pay2 x1))
        shapeCasts_S128_S128x1⟩ : (s : Shape) × (s.Idx → F .f32)))
      concatenates_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x1_S128x50_d1 := by
  unfold out0_2
  rw [View.canon_unit_zero hz]
  simp only [View.ld_unit_zero (S := S128x4096) hz, View.ld_unit_zero (S := S128x50) hz]
  rfl

/-- The stored block at entry `(p, q)`, over the extended reals. -/
theorem out_apply (x0 : Vec Ideal S128x4096 .f32) (x1 : Vec Ideal S128x50 .f32) (p : Fin 128) (q : Fin 50) :
    out0_2 x0 x1 (ix2 p q)
      = ∑ j : Fin 4096, max (Ideal.ofBits .f32 0x3F800000#32 - x1 (ix2 p q) + x0 (ix2 p j)) (Ideal.ofBits .f32 0x00000000#32) := by
  rw [out_eq]
  refine (stacked_columns_apply broadcasts_S128x1_S128x4096 reduces_S128x4096_S128 shapeCasts_S128_S128x1 x0 (k0_pay2 x1) _ p q).trans ?_
  rw [show k0_pay2 x1 = x1 from shapeCast_self _ _]

end Cert.KernelIdeal.MarginValue

end
-- ==== Proof.KernelArray.lean ====
/-
  The kernel's output array after the run: the per-label margin sums of the whole score array.

  Grid point `t` takes rows `128 t … 128 t + 127` of the scores and of the pre-gathered target scores and writes back
  the same rows of the output; the four blocks tile the output array, so after the last point the array is
  `Margin.sums` of the two arrays as the region finds them.
-/
import proofs.«162873_j73014444032082_1_alg».proof.Proof.KernelBlock
import Idealize.ShloMosaic.Lib.Pipeline.Value

set_option maxRecDepth 16384

noncomputable section

open scoped BigOperators

namespace Cert.KernelIdeal.MarginValue

open Idealize.ShloMosaic Idealize.ShloMosaic.TcCoe Idealize.ShloMosaic.ValueIdx Idealize.SL.Sem
open Cert.KernelIdeal Cert.KernelIdeal.Gen Cert.KernelIdeal.GenP Cert.Margin
open Idealize.ShloMosaic.Pipeline (Dat Cfg Window)

variable (m : (ℓ : Loc nD τ sig) → Buf (Elt Ideal) ℓ)

/-- The three windows' block indices at a grid point: the point's number on the row axis, zero on the other. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the per-label sums of the arrays the region finds. -/
theorem flushed_eq (c : Dev nD) (t : Fin cfg0.N) :
    (dats m 0 c).flushed 2 t
      = ((cfg0.win 2).blk t).view.read (Elt Ideal) (sums (V m c main_arg0) (V m c main_v3)) := by
  show (cfg0.win 2).cut (grid0.coords t) ((dats m 0 c).after 2 t) = _
  rw [after0_2]
  obtain ⟨e0, e1, e2, e3, e4, e5⟩ := idx_facts t
  show (out0_2 (iblk m c 0 t) (iblk m c 1 t) : S128x50.Idx → EReal)
    = fun y => sums (V m c main_arg0) (V m c main_v3) (((cfg0.win 2).blk t).view.emb y)
  funext y
  obtain ⟨p, q, rfl⟩ : ∃ (p : Fin 128) (q : Fin 50), y = ix2 p q := ⟨y 0, y 1, eq_ix2 y⟩
  refine (out_apply (iblk m c 0 t) (iblk m c 1 t) p q).trans ?_
  unfold sums
  have h1 : ((cfg0.win 1).blk t).view.emb (ix2 p q) = ((cfg0.win 2).blk t).view.emb (ix2 p q) := by
    funext a; apply Fin.ext
    match a with
    | ⟨0, _⟩ => show win0_1.index t (0 : Fin 2) * 128 + 1 * p.val = win0_2.index t (0 : Fin 2) * 128 + 1 * p.val; omega
    | ⟨1, _⟩ => show win0_1.index t (1 : Fin 2) * 50 + 1 * q.val = win0_2.index t (1 : Fin 2) * 50 + 1 * q.val; omega
  have h0 : ∀ j : Fin 4096, ((cfg0.win 0).blk t).view.emb (ix2 p j)
      = ix2 ((((cfg0.win 2).blk t).view.emb (ix2 p q)) 0) j := by
    intro j
    funext a; apply Fin.ext
    match a with
    | ⟨0, _⟩ => show win0_0.index t (0 : Fin 2) * 128 + 1 * p.val = win0_2.index t (0 : Fin 2) * 128 + 1 * p.val; omega
    | ⟨1, _⟩ => show win0_0.index t (1 : Fin 2) * 4096 + 1 * j.val = j.val; omega
  refine Finset.sum_congr rfl fun j _ => ?_
  show max (Ideal.ofBits .f32 0x3F800000#32 - V m c main_v3 (((cfg0.win 1).blk t).view.emb (ix2 p q))
      + V m c main_arg0 (((cfg0.win 0).blk t).view.emb (ix2 p j))) _ = _
  rw [h1, h0 j]
  rfl

/-- An index of the output array is in point `t`'s block iff each coordinate is in the block's range. -/
theorem mem_blk (t : Fin cfg0.N) (i : S512x50.Idx) :
    i ∈ ((cfg0.win 2).blk t).view.set ↔ ∀ a : Fin 2, win0_2.index t a * S128x50.size a ≤ (i a).val
      ∧ (i a).val < win0_2.index t a * S128x50.size a + S128x50.size a := by
  show i ∈ ((View.whole main_v4).slice (win0_2.rect t)).set ↔ _
  rw [View.set_slice_whole, Rect.mem_set_unit]
  exact Iff.rfl

/-- The four blocks cover the output array: row `r` lies in the block of point `r / 128`. -/
theorem cover (i : S512x50.Idx) :
    ∃ t : Fin cfg0.N, (cfg0.win 2).flush t = true ∧ i ∈ ((cfg0.win 2).blk t).view.set := by
  have hi0 : (i 0).val < 512 := (i 0).isLt
  have hi1 : (i 1).val < 50 := (i 1).isLt
  refine ⟨⟨(i 0).val / 128, by show (i 0).val / 128 < 4; omega⟩, flush0_2 _, ?_⟩
  rw [mem_blk]
  obtain ⟨_, _, _, _, e4, e5⟩ := idx_facts ⟨(i 0).val / 128, by show (i 0).val / 128 < 4; omega⟩
  intro a
  match a with
  | ⟨0, _⟩ =>
    show win0_2.index _ (0 : Fin 2) * 128 ≤ (i 0).val ∧ (i 0).val < win0_2.index _ (0 : Fin 2) * 128 + 128
    rw [e4]; show (i 0).val / 128 * 128 ≤ (i 0).val ∧ (i 0).val < (i 0).val / 128 * 128 + 128; omega
  | ⟨1, _⟩ =>
    show win0_2.index _ (1 : Fin 2) * 50 ≤ (i 1).val ∧ (i 1).val < win0_2.index _ (1 : Fin 2) * 50 + 50
    rw [e5]; omega

/-- The output array after the run. -/
theorem array_eq (c : Dev nD) :
    (dats m 0 c).arrAt 2 cfg0.N = sums (V m c main_arg0) (V m c main_v3) :=
  (dats m 0 c).arrAt_eq_of_cover 2 (sums (V m c main_arg0) (V m c main_v3)) (fun t _ => flushed_eq m c t) (cover)

end Cert.KernelIdeal.MarginValue

end
-- ==== Proof.Tail.lean ====
/-
  The loss from the per-label sums: the tail both programs share.

  Given the mask `valid` of real labels and the array `S` of per-label margin sums, the loss is
  `(∑ over valid (b, k) of (S[b, k] - 1)) / 4096`: one is subtracted from every entry (the class of the label itself
  contributes `max (1, 0) = 1` to its sum), padded labels are replaced by zero, everything is summed and the total is
  divided by the number of classes. Both programs apply exactly these host operations, so the loss is stated once, as
  one function of `valid` and `S`; the shape facts its operations take are arguments.
-/
import Idealize.ShloMosaic.PureOps
import Idealize.ShloMosaic.Lib.StableHlo

noncomputable section

namespace Cert.Margin

open Idealize.ShloMosaic

abbrev LT : Shape := ⟨2, ![512, 50]⟩
abbrev L0 : Shape := ⟨0, ![]⟩

/-- The loss as a function of the label mask and the per-label sums. -/
def tail {F : FTy → Type} [FloatOps F] (hb : L0.BroadcastsInDim LT (![] : Fin 0 → Fin LT.rank)) (hr : LT.ReducesTo [0, 1] L0)
    (h0 : 0 < L0.numel) (valid : IVec LT 1) (S : FVec F LT .f32) : FVec F L0 .f32 :=
  Host.divf
    (Host.reduceAdd
      (select valid (subf S (broadcastInDim LT ![] hb (constant L0 .f32 0x3F800000#32)))
        (broadcastInDim LT ![] hb (id (constant L0 .f32 0x00000000#32))))
      (constant L0 .f32 0x00000000#32) hr h0)
    (constant L0 .f32 0x45800000#32)

end Cert.Margin

end
-- ==== Proof.KernelResult.lean ====
/-
  The kernel's run, read: the loss it returns.

  After the region the program subtracts one from every per-label sum, zeroes the padded labels, sums everything and
  divides by the number of classes: the shared tail (`Margin.tail`) of the label mask, which the host prefix computed
  before the region, and of the output array, which after the run is `Margin.sums` of the scores and the pre-gathered
  target scores.
-/
import proofs.«162873_j73014444032082_1_alg».proof.Proof.KernelArray
import proofs.«162873_j73014444032082_1_alg».proof.Proof.Tail
import Idealize.ShloMosaic.Lib.StableHlo.Run

set_option maxRecDepth 16384

noncomputable section

namespace Cert.KernelIdeal.MarginValue

open Idealize.ShloMosaic Idealize.ShloMosaic.TcCoe Idealize.SL.Sem Idealize.ShloMosaic.StableHlo
open Cert.KernelIdeal Cert.KernelIdeal.Gen Cert.KernelIdeal.GenP Cert.Margin

variable (m : (ℓ : Loc nD τ sig) → Buf (Elt Ideal) ℓ) (ρ : Dev nD → PrngReg)

/-- The result buffer after the host operations that follow the region: the tail of the mask and the output array. -/
theorem result_eq (c : Dev nD) :
    Pipeline.afterTail₀ cfgs (dats m) 0 (V0 m) [hostOps1, hostOps1_1, hostOps1_2] c main_v9
      = tail (F := Ideal) bcast_S_S512x50 reducesTo_S512x50_S_d0_1 h_S_ (V m c main_v1) ((dats m 0 c).arrAt 2 cfg0.N) := by
  unfold Pipeline.afterTail₀
  simp only [hostOps1, hostOps1_1, hostOps1_2, List.flatten_cons, List.flatten_nil, List.append_nil, List.cons_append, List.nil_append]
  after_results
  simp only [TRef.ofBuf, TRef.toBuf, TRef.of, cast_eq]
  rw [show Pipeline.withArrays (cfgs 0).spec c (V0 m c) (fun w => (dats m 0 c).arrAt w (cfgs 0).N) (Proc.tc.devRef main_v4)
        = (dats m 0 c).arrAt 2 cfg0.N from Pipeline.withArrays_arr spec0 launch0.win.arr_inj c _ _ 2,
    show Pipeline.withArrays (cfgs 0).spec c (V0 m c) (fun w => (dats m 0 c).arrAt w (cfgs 0).N) (Proc.tc.devRef main_v1)
        = V m c main_v1 from Pipeline.withArrays_of_ne _ c (V0 m c) _ main_v1 (by decide)]
  rfl

/-- Every weakly fair execution of the kernel's program terminates with the result at the tail of the mask and of the
    per-label sums of the scores and the pre-gathered target scores, the arguments unchanged. -/
theorem run : θ_run defs (onTc (τ := τ) (main (F := Ideal))) ⟨m, fun _ => 0, ρ⟩ fun r => ∀ c : Dev nD,
      r.2.mem ((c.tc : Thread nD τ).loc main_v9)
        = tail (F := Ideal) bcast_S_S512x50 reducesTo_S512x50_S_d0_1 h_S_ (V m c main_v1)
            (sums (m ((c.tc : Thread nD τ).loc main_arg0)) (V m c main_v3))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v9 (Pipeline.mem_restRefs_of main_v9 (by decide) (by decide))).trans
        ((result_eq m c).trans (by rw [array_eq, V_main_arg0])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.MarginValue

end
-- ==== Proof.RefSums.lean ====
/-
  The reference's per-label sums and its loss, in the kernel's terms.

  The reference broadcasts the gathered target scores and the scores to a [512, 50, 4096] array, forms
  `max (1 - (xt[b, k] - x[b, j]), 0)`, and sums over the class axis from a zero initial value. Read at an entry
  `(b, k)`, that is `∑ j, max (one - (xt[b, k] - x[b, j])) zero`, which for real scores is the kernel's
  `Margin.sums` (`Margin.sums_eq_ref`). What follows the sum is the shared tail.
-/
import proofs.«162873_j73014444032082_1_alg».proof.Proof.RefRead
import proofs.«162873_j73014444032082_1_alg».proof.Proof.MarginColumn
import proofs.«162873_j73014444032082_1_alg».proof.Proof.Tail

noncomputable section

open scoped BigOperators

namespace Cert.ReferenceIdeal.MarginValue

open Idealize.ShloMosaic Idealize.ShloMosaic.ValueIdx
open Cert.ReferenceIdeal Cert.ReferenceIdeal.Gen Cert.ReferenceIdeal.ReadP Cert.Margin

/-- The reference's sum over the class axis is the per-label margin sums of the scores and the gathered target scores,
    when every score is a real number. -/
theorem sums_eq (x0 : FVec Ideal S512x4096 .f32) (x1 : IVec S512x50 32) (hx : ∀ i, ∃ r : ℝ, x0 i = (r : EReal)) :
    val_main_v12 (F := Ideal) x0 x1 = sums x0 (val_main_v3 (F := Ideal) x0 x1) := by
  funext i
  rw [sums_eq_ref x0 _ hx i, val_main_v12_apply]
  rw [show val_main_cst_1 (F := Ideal) (Shape.Idx.first h_S_) = 0 from Ideal.ofBits_zero_f32, zero_add]
  refine Finset.sum_congr rfl fun k _ => ?_
  rw [val_main_v11_apply, val_main_v10_apply, val_main_v9_apply, val_main_v8_apply, val_main_v6_apply, val_main_v7_apply,
    val_main_v4_apply, val_main_v5_apply, val_main_call2_v0_apply]
  have e1 : idx_main_v4 (idx_main_v6 (idx_main_v12 i k)) = i :=
    funext fun a => Fin.ext (by match a with | ⟨0, _⟩ => rfl | ⟨1, _⟩ => rfl)
  have e2 : idx_main_v5 (idx_main_v7 (idx_main_v12 i k)) = ix2 (i 0) k :=
    funext fun a => Fin.ext (by match a with | ⟨0, _⟩ => rfl | ⟨1, _⟩ => rfl)
  rw [e1, e2]
  rfl

/-- The reference's loss is the shared tail of its label mask and its per-label sums. -/
theorem result_eq (x0 : FVec Ideal S512x4096 .f32) (x1 : IVec S512x50 32) :
    val_main_v17 (F := Ideal) x0 x1
      = tail (F := Ideal) bcast_S_S512x50 reducesTo_S512x50_S_d0_1 h_S_ (val_main_v1 (F := Ideal) x1) (val_main_v12 (F := Ideal) x0 x1) := rfl

end Cert.ReferenceIdeal.MarginValue

end
-- ==== Proof.Finite.lean ====
/-
  The precondition read: every entry of the score array is a real number.

  The printed precondition is the conjunction, over all entries, of `|x| < +inf` (the literal is the f32 pattern of
  `+inf`, which denotes the top element of the extended reals). An extended real whose absolute value is below the top
  element is neither infinity, hence a real number.
-/
import proofs.«162873_j73014444032082_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Margin

open Idealize.ShloMosaic

instance : Subsingleton Cert.Pre_finite_inputs.S_.Idx := ⟨fun _ _ => funext fun d => d.elim0⟩

/-- An extended real with `|x| < +inf` is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every score is a real number. -/
theorem real_of_pre [Cert.Pre_finite_inputs.Facts] (a0 : FVec Ideal Cert.Pre_finite_inputs.S512x4096 .f32)
    (a1 : IVec Cert.Pre_finite_inputs.S512x50 32)
    (h : Cert.Pre_finite_inputs.fn (F := Ideal) a0 a1 = fun _ => 1#1) (i : Cert.Pre_finite_inputs.S512x4096.Idx) :
    ∃ r : ℝ, a0 i = (r : EReal) := by
  have e := congrFun h ValueIdx.ix0
  dsimp only [Cert.Pre_finite_inputs.fn] at e
  exact real_of_abs_lt_top (a0 i) (Host.reduce_andi_all _ _ _ _ _ e i)

end Cert.Margin

end
-- ==== Proof.lean ====
/-
  The multi-label constant-margin loss: the kernel against its reference, over the extended reals.

  For scores `x : [512, 4096]` and labels `target : [512, 50]` (`-1` = padding) both programs gather
  `xt[b, k] = x[b, target[b, k]]` with the same host operations, form for every label the sum over the classes `j` of
  a clamped margin, subtract one, drop the padded labels, add everything up and divide by the number of classes.
  They differ in one place: the kernel clamps `(1 - xt[b, k]) + x[b, j]`, the reference `1 - (xt[b, k] - x[b, j])`.
  On the extended reals these agree exactly when `x[b, j]` is finite, which the precondition gives
  (`Margin.sub_add_coe`, `Margin.real_of_pre`); the gathered `xt[b, k]` may be anything (an out-of-range label reads
  as the junk value on both sides).

  Kernel side: the body at a grid point stores the fifty label columns of its 128 rows (`MarginValue.out_apply`), the
  four blocks tile the output array (`MarginValue.array_eq`), and the host operations after the region are the shared
  tail (`MarginValue.run`). Reference side: its sum over the class axis read at an entry is the same per-label sum
  (`MarginValue.sums_eq`) and the rest is the same tail (`MarginValue.result_eq`). The label mask and the gathered
  target scores are, in both programs, the same functions of the arguments (`prefix_valid`, `prefix_gathered`).
  The idealization rewrote nothing, so `preserves` is trivial; the three frames are the programs' runs.
-/
import proofs.«162873_j73014444032082_1_alg».proof.Defs
import proofs.«162873_j73014444032082_1_alg».proof.Proof.Gen.Kernel
import proofs.«162873_j73014444032082_1_alg».proof.Proof.Gen.KernelIdeal
import proofs.«162873_j73014444032082_1_alg».proof.Proof.Gen.ReferenceIdeal
import proofs.«162873_j73014444032082_1_alg».proof.Proof.Gen.Pre_finite_inputs
import proofs.«162873_j73014444032082_1_alg».proof.Proof.KernelFrame
import proofs.«162873_j73014444032082_1_alg».proof.Proof.KernelResult
import proofs.«162873_j73014444032082_1_alg».proof.Proof.RefSums
import proofs.«162873_j73014444032082_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

section HostPrefix

open Cert.KernelIdeal Cert.KernelIdeal.Gen Cert.KernelIdeal.GenP

variable (m : (ℓ : Loc nD τ sig) → Buf (Elt Ideal) ℓ)

/-- The label mask the kernel's host prefix computes is the reference's, of the same labels. -/
theorem prefix_valid (c : Dev nD) :
    V m c main_v1 = Cert.ReferenceIdeal.ReadP.val_main_v1 (F := Ideal) (m ((c.tc : Thread nD τ).loc main_arg1)) := by
  dsimp only [V, V0]
  simp only [hostOps0, hostOps0_1, hostOps0_2, List.flatten_cons, List.flatten_nil, List.append_nil, List.cons_append,
    List.nil_append]
  after_results
  rfl

set_option maxHeartbeats 4000000 in
/-- The target scores the kernel's host prefix gathers are the reference's, of the same scores and labels. -/
theorem prefix_gathered (c : Dev nD) :
    V m c main_v3 = Cert.ReferenceIdeal.ReadP.val_main_v3 (F := Ideal) (m ((c.tc : Thread nD τ).loc main_arg0))
      (m ((c.tc : Thread nD τ).loc main_arg1)) := by
  dsimp only [V, V0]
  simp only [hostOps0, hostOps0_1, hostOps0_2, List.flatten_cons, List.flatten_nil, List.append_nil, List.cons_append,
    List.nil_append]
  after_results
  simp only [TRef.ofBuf, TRef.toBuf, TRef.of, cast_eq]
  rfl

end HostPrefix

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both programs end with the same loss: the shared tail of the same mask and, the scores being real, the same
    per-label sums. -/
theorem algebraic : Cert.algebraic_KernelIdeal_ReferenceIdeal := by
  intro m ρ m' ρ' hpre hagree
  refine ⟨_, Cert.KernelIdeal.MarginValue.run m ρ, ?_⟩
  refine (θ_run Cert.ReferenceIdeal.defs _ _).mono (fun _ h c => ⟨(h c).1.trans ?_, (h c).2⟩)
    (Cert.ReferenceIdeal.ValueP.run (F := Ideal) m' ρ')
  have hx := fun i => Cert.Margin.real_of_pre _ _ (hpre c) i
  rw [Cert.ReferenceIdeal.ReadP.val_main_v17_eq, (hagree c).1, (hagree c).2, Cert.ReferenceIdeal.MarginValue.result_eq,
    Cert.ReferenceIdeal.MarginValue.sums_eq _ _ hx, prefix_valid, prefix_gathered]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
